-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x256 : Shape := ⟨3, ![8, 8192, 256]⟩
abbrev S_ : Shape := ⟨0, ![]⟩

class Facts : Prop where
  bcast_S_S8x8192x256 : S_.BroadcastsInDim S8x8192x256 (![] : Fin 0 → Fin S8x8192x256.rank)
  reducesTo_S8x8192x256_S_d0_1_2 : S8x8192x256.ReducesTo [0, 1, 2] S_
  h_S_ : 0 < S_.numel

variable [Facts]

def fn {F : FTy → Type} [FloatOps F] (main_arg0 : FVec F S8x8192x256 .f32) (main_arg1 : FVec F S8x8192x256 .f32) : IVec S_ 1 :=
  let main_v0 : FVec F S8x8192x256 .f32 := Host.absf main_arg0
  let main_cst : FVec F S_ .f32 := constant S_ .f32 0x7F800000#32
  let main_v1 : FVec F S8x8192x256 .f32 := broadcastInDim S8x8192x256 ![] bcast_S_S8x8192x256 main_cst
  let main_v2 : IVec S8x8192x256 1 := cmpf .olt main_v0 main_v1
  let main_c : IVec S_ 1 := constantI S_ 1 1#1
  let main_v3 : IVec S_ 1 := (fun x v => Host.reduce IntOp.andi x v reducesTo_S8x8192x256_S_d0_1_2 h_S_) main_v2 main_c
  let main_v4 : FVec F S8x8192x256 .f32 := Host.absf main_arg1
  let main_cst_0 : FVec F S_ .f32 := constant S_ .f32 0x7F800000#32
  let main_v5 : FVec F S8x8192x256 .f32 := broadcastInDim S8x8192x256 ![] bcast_S_S8x8192x256 main_cst_0
  let main_v6 : IVec S8x8192x256 1 := cmpf .olt main_v4 main_v5
  let main_c_1 : IVec S_ 1 := constantI S_ 1 1#1
  let main_v7 : IVec S_ 1 := (fun x v => Host.reduce IntOp.andi x v reducesTo_S8x8192x256_S_d0_1_2 h_S_) main_v6 main_c_1
  let main_v8 : IVec S_ 1 := andi main_v3 main_v7
  main_v8
-- ==== Kernel.lean ====
abbrev S8x8192x256 : Shape := ⟨3, ![8, 8192, 256]⟩
abbrev S8x256x256 : Shape := ⟨3, ![8, 256, 256]⟩
abbrev S1x2048x256 : Shape := ⟨3, ![1, 2048, 256]⟩
abbrev S1x256x256 : Shape := ⟨3, ![1, 256, 256]⟩
abbrev S256x256 : Shape := ⟨2, ![256, 256]⟩
abbrev S2048x256 : Shape := ⟨2, ![2048, 256]⟩

abbrev nBuf : Space → Nat
  | .hbm => 3
  | .vmem => 7
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8x256x256, .f32⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | _, _ => ⟨S8x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  dot_S2048x256_S2048x256_S256x256_0_0_1_1_n_n_wf : DotDims.WF S2048x256 S2048x256 S256x256 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x8192x256.size a
  hwx0_0 : ∀ i : grid0.Coords, EltTy.bits .f32 = 32 ∨ (Rect.block (s := S8x8192x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x256.size a ≤ S8x8192x256.size a
  hwx0_1 : ∀ i : grid0.Coords, EltTy.bits .f32 = 32 ∨ (Rect.block (s := S8x8192x256) S1x2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x256.size a ≤ S8x256x256.size a
  hwx0_2 : ∀ i : grid0.Coords, EltTy.bits .f32 = 32 ∨ (Rect.block (s := S8x256x256) S1x256x256.size (cc0_transform_2 i) (hinb0_2 i)).WholeWords (EltTy.packing .f32)

variable [Facts₀]

def dot_S2048x256_S2048x256_S256x256_0_0_1_1_n_n : DotDims S2048x256 S2048x256 S256x256 where
  lhsContracting := [0]
  rhsContracting := [0]
  lhsNonContracting := [1]
  rhsNonContracting := [1]
  lhsBatch := []
  rhsBatch := []
  wf := dot_S2048x256_S2048x256_S256x256_0_0_1_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x8192x256 : Shape := ⟨3, ![8, 8192, 256]⟩
abbrev S8x256x256 : Shape := ⟨3, ![8, 256, 256]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8x8192x256, .f32⟩
  | .hbm, ⟨1, _⟩ => ⟨S8x8192x256, .f32⟩
  | .hbm, ⟨2, _⟩ => ⟨S8x256x256, .f32⟩
  | .hbm, ⟨3, _⟩ => ⟨S_, .f32⟩
  | .hbm, ⟨4, _⟩ => ⟨S8x256x256, .f32⟩
  | .hbm, ⟨5, _⟩ => ⟨S8x256x256, .f32⟩
  | _, _ => ⟨S8x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S8x256x256 : S_.BroadcastsInDim S8x256x256 (![] : Fin 0 → Fin S8x256x256.rank)
  dot_S8x8192x256_S8x8192x256_S8x256x256_1_1_2_2_0_0_wf : DotDims.WF S8x8192x256 S8x8192x256 S8x256x256 [1] [1] [2] [2] [0] [0]

variable [Facts₀]

def dot_S8x8192x256_S8x8192x256_S8x256x256_1_1_2_2_0_0 : DotDims S8x8192x256 S8x8192x256 S8x256x256 where
  lhsContracting := [1]
  rhsContracting := [1]
  lhsNonContracting := [2]
  rhsNonContracting := [2]
  lhsBatch := [0]
  rhsBatch := [0]
  wf := dot_S8x8192x256_S8x8192x256_S8x256x256_1_1_2_2_0_0_wf

class Facts : Prop extends Facts₀ where

variable [Facts]
-- ==== Proof.Spec.lean ====
/-
  The mean outer product as one function of the two argument arrays.

  For a batch `p`, a row `i` and a column `j` the result is the sum over all 8192 positions `s` of
  `a[p, s, i] * b[p, s, j]`, times the float whose pattern is 0x39000000, which is exactly 2⁻¹³ = 1/8192.
  Dividing an extended real by the float 8192 (pattern 0x46000000) is multiplying it by that 2⁻¹³: both constants are
  exact powers of two, so nothing is rounded, and the law holds at the infinities too.

  A sum over 8192 positions is the sum, over four consecutive tiles of 2048 positions, of the tile's sum: addition of
  extended reals is commutative and associative, so no finiteness is needed for the regrouping.
-/
import Idealize.ShloMosaic.Lib.ValueIdx
import Idealize.ShloMosaic.PureOps.Ideal.Laws

noncomputable section

open scoped BigOperators

namespace Cert.MeanOuter

open Idealize.ShloMosaic Idealize.ShloMosaic.ValueIdx

/-- The pattern 0x46000000 denotes 2¹³. -/
theorem ofBits_two_pow_13 : Ideal.ofBits .f32 0x46000000#32 = ((8192 : ℝ) : EReal) := by
  simp [Ideal.ofBits, Ideal.ieee, -EReal.coe_mul]; norm_num

/-- The pattern 0x39000000 denotes 2⁻¹³. -/
theorem ofBits_two_pow_neg_13 : Ideal.ofBits .f32 0x39000000#32 = ((1 / 8192 : ℝ) : EReal) := by
  simp [Ideal.ofBits, Ideal.ieee, -EReal.coe_mul]; norm_num

/-- Dividing by 2¹³ is multiplying by 2⁻¹³, on every extended real. -/
theorem div_two_pow_13 (x : EReal) :
    Ideal.div x (Ideal.ofBits .f32 0x46000000#32) = x * Ideal.ofBits .f32 0x39000000#32 := by
  rw [ofBits_two_pow_13, ofBits_two_pow_neg_13, Ideal.div_coe (by norm_num : (8192 : ℝ) ≠ 0)]

/-- The mean over the 8192 positions of the outer products of the rows of `a` and `b`, batch by batch. -/
def meanOuter (a b : FVec Ideal ⟨3, ![8, 8192, 256]⟩ .f32) : FVec Ideal ⟨3, ![8, 256, 256]⟩ .f32 :=
  fun o => (∑ s : Fin 8192, a (ix3 (o 0) s (o 1)) * b (ix3 (o 0) s (o 2))) * Ideal.ofBits .f32 0x39000000#32

theorem meanOuter_apply (a b : FVec Ideal ⟨3, ![8, 8192, 256]⟩ .f32) (p : Fin 8) (i j : Fin 256) :
    meanOuter a b (ix3 p i j) = (∑ s : Fin 8192, a (ix3 p s i) * b (ix3 p s j)) * Ideal.ofBits .f32 0x39000000#32 := rfl

/-- An array of shape [8, 8192, 256] read at three natural numbers: its entry where they are coordinates, zero
    elsewhere. A total function of the naturals, so that a sum over a range of positions can be stated without bounds. -/
def atNat (a : FVec Ideal ⟨3, ![8, 8192, 256]⟩ .f32) (p s i : ℕ) : EReal :=
  if h : p < 8 ∧ s < 8192 ∧ i < 256 then a (ix3 ⟨p, h.1⟩ ⟨s, h.2.1⟩ ⟨i, h.2.2⟩) else 0

theorem atNat_val (a : FVec Ideal ⟨3, ![8, 8192, 256]⟩ .f32) (p : Fin 8) (s : Fin 8192) (i : Fin 256) :
    atNat a p.val s.val i.val = a (ix3 p s i) := dif_pos ⟨p.isLt, s.isLt, i.isLt⟩

/-- A sum over `n` consecutive tiles of `T` positions each is the sum over the first `T * n` positions. -/
theorem sum_range_tiles {M : Type*} [AddCommMonoid M] (f : ℕ → M) (T : ℕ) :
    ∀ n : ℕ, ∑ s ∈ Finset.range n, ∑ r ∈ Finset.range T, f (T * s + r) = ∑ k ∈ Finset.range (T * n), f k
  | 0 => by simp
  | n + 1 => by rw [Finset.sum_range_succ, sum_range_tiles f T n, Nat.mul_succ, Finset.sum_range_add]

/-- The sum over all 8192 positions, tile by tile: four tiles of 2048. -/
theorem sum_four_tiles (a b : FVec Ideal ⟨3, ![8, 8192, 256]⟩ .f32) (p : Fin 8) (i j : Fin 256) :
    ∑ s ∈ Finset.range 4, ∑ r : Fin 2048, atNat a p.val (2048 * s + r.val) i.val * atNat b p.val (2048 * s + r.val) j.val
      = ∑ s : Fin 8192, a (ix3 p s i) * b (ix3 p s j) := by
  have h1 : ∀ s : ℕ, ∑ r : Fin 2048, atNat a p.val (2048 * s + r.val) i.val * atNat b p.val (2048 * s + r.val) j.val
      = ∑ r ∈ Finset.range 2048, atNat a p.val (2048 * s + r) i.val * atNat b p.val (2048 * s + r) j.val :=
    fun s => (Finset.sum_range (fun r => atNat a p.val (2048 * s + r) i.val * atNat b p.val (2048 * s + r) j.val)).symm
  simp only [h1]
  rw [sum_range_tiles (fun k => atNat a p.val k i.val * atNat b p.val k j.val) 2048 4,
    Finset.sum_range (fun k => atNat a p.val k i.val * atNat b p.val k j.val)]
  exact Finset.sum_congr rfl fun s _ => by rw [atNat_val, atNat_val]

end Cert.MeanOuter

end
-- ==== Proof.RefIsSpec.lean ====
/-
  The reference computes the mean outer product.

  Its batched product contracts axis 1 of both arguments: entry (p, i, j) is the sum over the position `k` of
  `a[p, k, i] * b[p, k, j]`. It then divides every entry by the float 8192, which on the extended reals is the
  product with 2⁻¹³.
-/
import proofs.«101816_j30313879176037_1_alg».proof.Proof.Gen.ReferenceIdeal.Read
import proofs.«101816_j30313879176037_1_alg».proof.Proof.Spec

noncomputable section

open scoped BigOperators

namespace Cert.ReferenceIdeal.RefValue

open Cert.ReferenceIdeal Cert.ReferenceIdeal.Gen Idealize.ShloMosaic Idealize.ShloMosaic.ValueIdx Cert.MeanOuter

/-- The left operand is read at (batch, position, row). -/
theorem left_index (o : S8x256x256.Idx) (k : Fin 8192) : Read.lidx_main_v0 o k = ix3 (o 0) k (o 1) :=
  funext fun a => by match a with | ⟨0, _⟩ => rfl | ⟨1, _⟩ => rfl | ⟨2, _⟩ => rfl

/-- The right operand is read at (batch, position, column). -/
theorem right_index (o : S8x256x256.Idx) (k : Fin 8192) : Read.ridx_main_v0 o k = ix3 (o 0) k (o 2) :=
  funext fun a => by match a with | ⟨0, _⟩ => rfl | ⟨1, _⟩ => rfl | ⟨2, _⟩ => rfl

/-- The reference's result, as a function of its two arguments, is the mean outer product. -/
theorem reference_eq (x0 x1 : (⟨S8x8192x256, .f32⟩ : BufTy).Contents (Elt Ideal)) :
    Read.val_main_v2 (F := Ideal) x0 x1 = meanOuter x0 x1 := by
  funext o
  rw [Read.val_main_v2_apply, Read.val_main_v0_apply, Read.val_main_v1_apply, Read.val_main_cst_apply]
  simp only [left_index, right_index, Ideal.hostDivf_def, Ideal.ofBits_def, div_two_pow_13]
  rfl

end Cert.ReferenceIdeal.RefValue

end
-- ==== Proof.Pieces.lean ====
/-
  What one grid point leaves behind, as values.

  The accumulator (a 256 × 256 scratch) after a point is the point's update `k0_pay2` of the two input tiles and of
  what the accumulator held: at a point that opens a batch the accumulator is first overwritten with the zero block
  `k0_pay1`, so the update is over that block; at every other point it is over what the point before left. At a point
  that closes a batch the output block is `k0_pay3` of the accumulator as just updated.
  Every load and store of the body covers its whole buffer from the origin, so each read returns the buffer's contents
  and the one covering store's value is what the buffer ends holding.
-/
import proofs.«101816_j30313879176037_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

theorem origin2 : (![0, 0] : Fin 2 → Nat) = fun _ => 0 := funext fun a => by fin_cases a <;> rfl
theorem origin3 : (![0, 0, 0] : Fin 3 → Nat) = fun _ => 0 := funext fun a => by fin_cases a <;> rfl

/-- A point that opens a batch: the accumulator ends at the update over the zero block. -/
theorem acc_open (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .f32) (harg4 : arg4.IsWhole) (arg5 : Memref sig .tc .vmem S256x256 .f32) (harg5 : arg5.IsWhole) (hc0 : cond0_0 i) (hc1 : ¬cond0_1 i) (x0 x1 : Vec F S1x2048x256 .f32) :
    sout0_A_0 c i arg2 harg2 arg3 harg3 arg4 harg4 arg5 harg5 hc0 hc1 x0 x1 = k0_pay2 x0 x1 (k0_pay1 (F := F)) := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S256x256) origin2, View.readCov_unit_zero (S := S256x256) _ origin2]
  simp only [View.readAt_eq_ld, harg2.read_unread, harg3.read_unread, View.ld_unit_zero (S := S1x2048x256) origin3]

/-- A point inside a batch: the accumulator ends at the update over what it held. -/
theorem acc_mid (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .f32) (harg4 : arg4.IsWhole) (arg5 : Memref sig .tc .vmem S256x256 .f32) (harg5 : arg5.IsWhole) (hc0 : ¬cond0_0 i) (hc1 : ¬cond0_1 i) (x0 x1 : Vec F S1x2048x256 .f32) (xs0 : Vec F S256x256 .f32) :
    sout0_B_0 c i arg2 harg2 arg3 harg3 arg4 harg4 arg5 harg5 hc0 hc1 x0 x1 xs0 = k0_pay2 x0 x1 xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero origin2]
  simp only [View.readAt_eq_ld, harg2.read_unread, harg3.read_unread, harg5.read_unread,
    View.ld_unit_zero (S := S1x2048x256) origin3, View.ld_unit_zero (S := S256x256) origin2]

/-- A point that closes a batch: the accumulator ends at the update over what it held, -/
theorem acc_close (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .f32) (harg4 : arg4.IsWhole) (arg5 : Memref sig .tc .vmem S256x256 .f32) (harg5 : arg5.IsWhole) (hc0 : ¬cond0_0 i) (hc1 : cond0_1 i) (x0 x1 : Vec F S1x2048x256 .f32) (xs0 : Vec F S256x256 .f32) :
    sout0_C_0 c i arg2 harg2 arg3 harg3 arg4 harg4 arg5 harg5 hc0 hc1 x0 x1 xs0 = k0_pay2 x0 x1 xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero origin2]
  simp only [View.readAt_eq_ld, harg2.read_unread, harg3.read_unread, harg5.read_unread,
    View.ld_unit_zero (S := S1x2048x256) origin3, View.ld_unit_zero (S := S256x256) origin2]

/-- and the output block at the scaled accumulator as just updated. -/
theorem out_close (c : Dev nD) (i : grid0.Coords) (arg2 : Memref sig .tc .vmem S1x2048x256 .f32) (harg2 : arg2.IsWhole) (arg3 : Memref sig .tc .vmem S1x2048x256 .f32) (harg3 : arg3.IsWhole) (arg4 : Memref sig .tc .vmem S1x256x256 .f32) (harg4 : arg4.IsWhole) (arg5 : Memref sig .tc .vmem S256x256 .f32) (harg5 : arg5.IsWhole) (hc0 : ¬cond0_0 i) (hc1 : cond0_1 i) (x0 x1 : Vec F S1x2048x256 .f32) (xs0 : Vec F S256x256 .f32) :
    out0_C_2 c i arg2 harg2 arg3 harg3 arg4 harg4 arg5 harg5 hc0 hc1 x0 x1 xs0 = k0_pay3 (k0_pay2 x0 x1 xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero origin3, View.readCov_unit_zero (S := S256x256) _ origin2]
  simp only [View.readAt_eq_ld, harg2.read_unread, harg3.read_unread, harg5.read_unread,
    View.ld_unit_zero (S := S1x2048x256) origin3, View.ld_unit_zero (S := S256x256) origin2]

end Cert.KernelIdeal.Pieces

end
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Fold.lean ====
/-
  The accumulator after a grid point, entry by entry, at the ideal values.

  Point `n` of the grid works on batch `n / 4` and on tile `n % 4` of the 8192 positions (tile `k` holds positions
  `2048 k … 2048 k + 2047`). Its update adds to entry (i, j) of the accumulator the tile's product
      ∑ r < 2048, a[n / 4, 2048 (n % 4) + r, i] * b[n / 4, 2048 (n % 4) + r, j]:
  the two tiles are rounded to a narrower format first, which changes nothing at the ideal values, and are contracted
  over their first axis into a zero accumulator, a plain sum. The batch's first point starts from the zero block. So
  after point `t` entry (i, j) holds `0` plus the tile products of the points `4 (t / 4) … t`.
-/
import proofs.«101816_j30313879176037_1_alg».proof.Proof.Gen.KernelIdeal.Value
import proofs.«101816_j30313879176037_1_alg».proof.Proof.Pieces
import proofs.«101816_j30313879176037_1_alg».proof.Proof.LibDot
import proofs.«101816_j30313879176037_1_alg».proof.Proof.Spec
import Idealize.ShloMosaic.Lib.ValueLayout

noncomputable section

open scoped BigOperators

namespace Cert.KernelIdeal.Fold

open Cert.KernelIdeal Cert.KernelIdeal.Gen
open Idealize.ShloMosaic Idealize.ShloMosaic.TcCoe Idealize.SL.Sem Idealize.ShloMosaic.ValueIdx Cert.MeanOuter

variable (m : (ℓ : Loc nD τ sig) → Buf (Elt Ideal) ℓ)

/-! ## The body's arithmetic at an entry -/

/-- The update: entry (i, j) gains the sum over the tile's 2048 positions of the products of the two tiles' entries. -/
theorem update_apply (x0 x1 : Vec Ideal S1x2048x256 .f32) (acc : Vec Ideal S256x256 .f32) (i j : Fin 256) :
    k0_pay2 (F := Ideal) x0 x1 acc (ix2 i j)
      = acc (ix2 i j) + ∑ r : Fin 2048, x0 (ix3 (0 : Fin 1) r i) * x1 (ix3 (0 : Fin 1) r j) := by
  unfold k0_pay2
  refine (congrFun (shapeCast_self _ _) (ix2 i j)).trans ?_
  refine (addf_apply _ _ _).trans ?_
  refine congrArg (fun z => acc (ix2 i j) + z) ?_
  refine (Cert.LibDot.matmul_00_zero_apply dot_S2048x256_S2048x256_S256x256_0_0_1_1_n_n rfl rfl rfl rfl rfl rfl none _ _ i j).trans ?_
  refine Finset.sum_congr rfl fun r _ => ?_
  refine congrArg₂ (fun y z : EReal => y * z) ?_ ?_
  · exact (truncf_apply (ψ := .bf16) _ bitsLt_bf16_f32 _).trans (shapeCast_1ab_ab_apply x0 _ r i)
  · exact (truncf_apply (ψ := .bf16) _ bitsLt_bf16_f32 _).trans (shapeCast_1ab_ab_apply x1 _ r j)

/-- The zero block is zero at every entry. -/
theorem zero_apply (o : S256x256.Idx) : k0_pay1 (F := Ideal) o = 0 := by
  unfold k0_pay1
  refine (congrFun (shapeCast_self _ _) o).trans ?_
  exact Ideal.ofBits_zero_f32

/-- The scaling: entry (i, j) of the output block is the accumulator's entry times 2⁻¹³. -/
theorem scale_apply (acc : Vec Ideal S256x256 .f32) (u : Fin 1) (i j : Fin 256) :
    k0_pay3 (F := Ideal) acc (ix3 u i j) = acc (ix2 i j) * Ideal.ofBits .f32 0x39000000#32 := by
  unfold k0_pay3
  refine (shapeCast_ab_1ab_apply _ _ u i j).trans ?_
  rfl

/-! ## The tiles a point reads -/

/-- The printed index maps over the grid: point `t` reads tile `t % 4` of batch `t / 4` of both arguments, and the
    output block of batch `t / 4`. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 3) = t.val / 4 ∧ win0_1.index t (1 : Fin 3) = t.val % 4 ∧ win0_1.index t (2 : Fin 3) = 0
    ∧ win0_2.index t (0 : Fin 3) = t.val / 4 ∧ win0_2.index t (1 : Fin 3) = 0 ∧ win0_2.index t (2 : Fin 3) = 0 :=
  (by decide +kernel : ∀ t : Fin grid0.N, _)

/-- The first argument's tile at point `t`, at (r, i): position `2048 (t % 4) + r` of batch `t / 4`. -/
theorem left_tile_apply (c : Dev nD) (t : Fin cfg0.N) (u : Fin 1) (r : Fin 2048) (i : Fin 256) :
    (iblk m c 0 t : Vec Ideal S1x2048x256 .f32) (ix3 u r i)
      = atNat (m ((c : Thread nD τ).loc main_arg0)) (t.val / 4) (2048 * (t.val % 4) + r.val) i.val := by
  have hN : t.val < 32 := lt_of_lt_of_eq t.isLt (show cfg0.N = 32 from N_0)
  obtain ⟨e0, e1, e2, -⟩ := idx_facts t
  have hu : u.val = 0 := by have := u.isLt; omega
  have hb : t.val / 4 < 8 ∧ 2048 * (t.val % 4) + r.val < 8192 ∧ i.val < 256 :=
    ⟨by omega, by have := r.isLt; omega, i.isLt⟩
  unfold atNat
  rw [dif_pos hb]
  show V m c main_arg0 (((cfg0.win 0).blk t).view.emb (ix3 u r i)) = _
  refine congrArg (m ((c : Thread nD τ).loc main_arg0)) ?_
  funext a; apply Fin.ext
  match a with
  | ⟨0, _⟩ => show win0_0.index t (0 : Fin 3) * 1 + 1 * u.val = t.val / 4; omega
  | ⟨1, _⟩ => show win0_0.index t (1 : Fin 3) * 2048 + 1 * r.val = 2048 * (t.val % 4) + r.val; omega
  | ⟨2, _⟩ => show win0_0.index t (2 : Fin 3) * 256 + 1 * i.val = i.val; omega

/-- The second argument's tile at point `t`, likewise. -/
theorem right_tile_apply (c : Dev nD) (t : Fin cfg0.N) (u : Fin 1) (r : Fin 2048) (j : Fin 256) :
    (iblk m c 1 t : Vec Ideal S1x2048x256 .f32) (ix3 u r j)
      = atNat (m ((c : Thread nD τ).loc main_arg1)) (t.val / 4) (2048 * (t.val % 4) + r.val) j.val := by
  have hN : t.val < 32 := lt_of_lt_of_eq t.isLt (show cfg0.N = 32 from N_0)
  obtain ⟨-, -, -, e0, e1, e2, -⟩ := idx_facts t
  have hu : u.val = 0 := by have := u.isLt; omega
  have hb : t.val / 4 < 8 ∧ 2048 * (t.val % 4) + r.val < 8192 ∧ j.val < 256 :=
    ⟨by omega, by have := r.isLt; omega, j.isLt⟩
  unfold atNat
  rw [dif_pos hb]
  show V m c main_arg1 (((cfg0.win 1).blk t).view.emb (ix3 u r j)) = _
  refine congrArg (m ((c : Thread nD τ).loc main_arg1)) ?_
  funext a; apply Fin.ext
  match a with
  | ⟨0, _⟩ => show win0_1.index t (0 : Fin 3) * 1 + 1 * u.val = t.val / 4; omega
  | ⟨1, _⟩ => show win0_1.index t (1 : Fin 3) * 2048 + 1 * r.val = 2048 * (t.val % 4) + r.val; omega
  | ⟨2, _⟩ => show win0_1.index t (2 : Fin 3) * 256 + 1 * j.val = j.val; omega

/-! ## The accumulator, point by point -/

/-- What point `n` adds to the accumulator's entry `o`: the product of tile `n % 4` of batch `n / 4`. -/
def tileProd (c : Dev nD) (n : ℕ) (o : S256x256.Idx) : EReal :=
  ∑ r : Fin 2048, atNat (m ((c : Thread nD τ).loc main_arg0)) (n / 4) (2048 * (n % 4) + r.val) (o 0).val
    * atNat (m ((c : Thread nD τ).loc main_arg1)) (n / 4) (2048 * (n % 4) + r.val) (o 1).val

/-- The update of the two tiles of point `n`, over any accumulator, adds the point's tile product. -/
theorem update_tiles (c : Dev nD) (n : ℕ) (h : n < cfg0.N) (acc : Vec Ideal S256x256 .f32) (o : S256x256.Idx) :
    k0_pay2 (F := Ideal) (iblk m c 0 ⟨n, h⟩) (iblk m c 1 ⟨n, h⟩) acc o = acc o + tileProd m c n o := by
  obtain ⟨i, j, rfl⟩ : ∃ (i j : Fin 256), o = ix2 i j := ⟨o 0, o 1, eq_ix2 o⟩
  refine (update_apply (iblk m c 0 ⟨n, h⟩) (iblk m c 1 ⟨n, h⟩) acc i j).trans ?_
  refine congrArg (fun z => acc (ix2 i j) + z) ?_
  unfold tileProd
  refine Finset.sum_congr rfl fun r _ => ?_
  exact congrArg₂ (fun y z : EReal => y * z) (left_tile_apply m c ⟨n, h⟩ 0 r i) (right_tile_apply m c ⟨n, h⟩ 0 r j)

/-- A point that opens a batch leaves zero plus its tile product, whatever the accumulator held. -/
theorem step_open (c : Dev nD) (n : ℕ) (h : n < cfg0.N) (h0 : n % 4 = 0) (acc : Vec Ideal S256x256 .f32)
    (o : S256x256.Idx) : Value.scAt0_0 m c n h acc o = 0 + tileProd m c n o := by
  have h1 : ¬n % 4 = 3 := by omega
  unfold Value.scAt0_0
  rw [dif_pos h0, dif_neg h1, Pieces.acc_open]
  refine (update_tiles m c n h _ o).trans ?_
  exact congrArg (fun z => z + tileProd m c n o) (zero_apply o)

/-- Any other point adds its tile product to what the accumulator held. -/
theorem step_add (c : Dev nD) (n : ℕ) (h : n < cfg0.N) (h0 : ¬n % 4 = 0) (acc : Vec Ideal S256x256 .f32)
    (o : S256x256.Idx) : Value.scAt0_0 m c n h acc o = acc o + tileProd m c n o := by
  unfold Value.scAt0_0
  rw [dif_neg h0]
  by_cases h1 : n % 4 = 3
  · rw [dif_pos h1, Pieces.acc_close]
    exact update_tiles m c n h acc o
  · rw [dif_neg h1, Pieces.acc_mid]
    exact update_tiles m c n h acc o

/-- THE ACCUMULATOR after point `t`: zero plus the tile products of the batch's points up to `t`. -/
theorem acc_after (c : Dev nD) (t : Fin cfg0.N) (o : S256x256.Idx) :
    (outsAt0 m c t.val t.isLt).2 o
      = 0 + ∑ s ∈ Finset.range (t.val % 4 + 1), tileProd m c (4 * (t.val / 4) + s) o := by
  rw [Value.soutsAt0_0_eq]
  exact Pipeline.accAt_add_apply (β := EReal) _ _ (fun _ => 0) (tileProd m c) (4 * (t.val / 4)) 3
    (fun h o => step_open m c _ h (by omega) _ o)
    (fun n h acc o hlo hhi => step_add m c n h (by omega) acc o)
    (t.val % 4) (by omega) _ o

end Cert.KernelIdeal.Fold

end
-- ==== Proof.Whole.lean ====
/-
  The result array after the run is the mean outer product of the two arguments.

  Only the point that closes a batch (the batch's fourth tile) writes the output back, into block `t / 4` of the
  result: the batch's 256 × 256 matrix. There the accumulator holds zero plus the four tile products of the batch,
  which is the sum over all 8192 positions, and the output block is that sum times 2⁻¹³. Every index of the result
  lies in the block of the point that closes its batch, so the whole array is determined.
-/
import proofs.«101816_j30313879176037_1_alg».proof.Proof.Fold

noncomputable section

open scoped BigOperators

namespace Cert.KernelIdeal.Whole

open Cert.KernelIdeal Cert.KernelIdeal.Gen
open Idealize.ShloMosaic Idealize.ShloMosaic.TcCoe Idealize.SL.Sem Idealize.ShloMosaic.ValueIdx Cert.MeanOuter
open Idealize.ShloMosaic.Pipeline (Dat)

variable (m : (ℓ : Loc nD τ sig) → Buf (Elt Ideal) ℓ) (ρ : Dev nD → PrngReg)

/-- At a point that closes a batch the output block is the scaling of the accumulator as that point leaves it. -/
theorem out_at_close (c : Dev nD) (t : Fin cfg0.N) (h0 : ¬t.val % 4 = 0) (h1 : t.val % 4 = 3) :
    (outsAt0 m c t.val t.isLt).1 = k0_pay3 ((outsAt0 m c t.val t.isLt).2) := by
  rw [outsAt0_C m c t h0 h1]
  dsimp only
  rw [Pieces.out_close, Pieces.acc_close]

/-- The two arguments as launched, as arrays of extended reals. -/
abbrev argA (c : Dev nD) : FVec Ideal ⟨3, ![8, 8192, 256]⟩ .f32 := m ((c : Thread nD τ).loc main_arg0)
abbrev argB (c : Dev nD) : FVec Ideal ⟨3, ![8, 8192, 256]⟩ .f32 := m ((c : Thread nD τ).loc main_arg1)

/-- The four tile products of batch `q` add up to the sum over all its 8192 positions. -/
theorem batch_sum (c : Dev nD) (q : Fin 8) (i j : Fin 256) :
    ∑ s ∈ Finset.range 4, Fold.tileProd m c (4 * q.val + s) (ix2 i j)
      = ∑ k : Fin 8192, argA m c (ix3 q k i) * argB m c (ix3 q k j) := by
  rw [← sum_four_tiles (argA m c) (argB m c) q i j]
  refine Finset.sum_congr rfl fun s hs => ?_
  have hs4 : s < 4 := Finset.mem_range.mp hs
  have e1 : (4 * q.val + s) / 4 = q.val := by omega
  have e2 : (4 * q.val + s) % 4 = s := by omega
  unfold Fold.tileProd
  rw [e1, e2]

/-- WHAT A WRITE-BACK POINT WRITES is its block of the mean outer product. -/
theorem flushed_eq (c : Dev nD) (t : Fin cfg0.N) (hf : (cfg0.win 2).flush t = true) :
    (dats m 0 c).flushed 2 t = ((cfg0.win 2).blk t).view.read (Elt Ideal) (meanOuter (m ((c : Thread nD τ).loc main_arg0)) (m ((c : Thread nD τ).loc main_arg1))) := by
  have hN : t.val < 32 := lt_of_lt_of_eq t.isLt (show cfg0.N = 32 from N_0)
  have h3 : t.val % 4 = 3 := (flush0_2 t).mp hf
  have h0 : ¬t.val % 4 = 0 := by omega
  have hq : t.val / 4 < 8 := by omega
  obtain ⟨-, -, -, -, -, -, e0, e1, e2⟩ := Fold.idx_facts t
  rw [Value.flushed2, out_at_close m c t h0 h3]
  funext y
  obtain ⟨u, i, j, rfl⟩ : ∃ (u : Fin 1) (i j : Fin 256), y = ix3 u i j :=
    ⟨y 0, y 1, y 2, eq_ix3 (n0 := 1) (n1 := 256) (n2 := 256) y⟩
  have hu : u.val = 0 := by have := u.isLt; omega
  have hemb : ((cfg0.win 2).blk t).view.emb (ix3 u i j) = ix3 (⟨t.val / 4, hq⟩ : Fin 8) i j := by
    funext a; apply Fin.ext
    match a with
    | ⟨0, _⟩ => show win0_2.index t (0 : Fin 3) * 1 + 1 * u.val = t.val / 4; omega
    | ⟨1, _⟩ => show win0_2.index t (1 : Fin 3) * 256 + 1 * i.val = i.val; omega
    | ⟨2, _⟩ => show win0_2.index t (2 : Fin 3) * 256 + 1 * j.val = j.val; omega
  show k0_pay3 ((outsAt0 m c t.val t.isLt).2) (ix3 u i j)
    = meanOuter (m ((c : Thread nD τ).loc main_arg0)) (m ((c : Thread nD τ).loc main_arg1)) (((cfg0.win 2).blk t).view.emb (ix3 u i j))
  rw [hemb, meanOuter_apply]
  refine (Fold.scale_apply _ u i j).trans ?_
  refine congrArg (fun z => z * Ideal.ofBits .f32 0x39000000#32) ?_
  refine (Fold.acc_after m c t (ix2 i j)).trans ?_
  rw [h3, zero_add]
  exact batch_sum m c ⟨t.val / 4, hq⟩ i j

/-- An index of the result is in point `t`'s block iff each coordinate is in the block's range on its axis. -/
theorem mem_block (t : Fin cfg0.N) (o : S8x256x256.Idx) :
    o ∈ ((cfg0.win 2).blk t).view.set ↔ ∀ a : Fin 3, win0_2.index t a * S1x256x256.size a ≤ (o a).val
      ∧ (o a).val < win0_2.index t a * S1x256x256.size a + S1x256x256.size a := by
  show o ∈ ((View.whole main_v0).slice (win0_2.rect t)).set ↔ _
  rw [View.set_slice_whole, Rect.mem_set_unit]
  exact Iff.rfl

/-- THE RESULT ARRAY after the run: the mean outer product of the arguments. -/
theorem final (c : Dev nD) : (dats m 0 c).arrAt 2 cfg0.N = meanOuter (m ((c : Thread nD τ).loc main_arg0)) (m ((c : Thread nD τ).loc main_arg1)) :=
  (dats m 0 c).arrAt_eq_of_cover 2 _ (flushed_eq m c) fun o => by
    have ho0 : (o 0).val < 8 := (o 0).isLt
    have ho1 : (o 1).val < 256 := (o 1).isLt
    have ho2 : (o 2).val < 256 := (o 2).isLt
    have hN : cfg0.N = 32 := N_0
    obtain ⟨t, ht⟩ : ∃ t : Fin cfg0.N, t.val = 4 * (o 0).val + 3 := ⟨⟨4 * (o 0).val + 3, by omega⟩, rfl⟩
    obtain ⟨-, -, -, -, -, -, e0, e1, e2⟩ := Fold.idx_facts t
    refine ⟨t, (flush0_2 t).mpr (by omega), ?_⟩
    rw [mem_block]
    intro a
    match a with
    | ⟨0, _⟩ => show win0_2.index t (0 : Fin 3) * 1 ≤ (o 0).val ∧ (o 0).val < win0_2.index t (0 : Fin 3) * 1 + 1; omega
    | ⟨1, _⟩ => show win0_2.index t (1 : Fin 3) * 256 ≤ (o 1).val ∧ (o 1).val < win0_2.index t (1 : Fin 3) * 256 + 256; omega
    | ⟨2, _⟩ => show win0_2.index t (2 : Fin 3) * 256 ≤ (o 2).val ∧ (o 2).val < win0_2.index t (2 : Fin 3) * 256 + 256; omega

/-- The run, read: the result array at the mean outer product of the arguments, the arguments unchanged. -/
theorem run : θ_run defs (onTc (τ := τ) (main (F := Ideal))) ⟨m, fun _ => 0, ρ⟩ fun r => ∀ c : Dev nD,
      r.2.mem ((c : Thread nD τ).loc main_v0) = meanOuter (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.lean ====
/- The kernel computes, batch by batch, the mean over 8192 positions of the outer products of the rows of its two
   arguments: for each batch it adds up, tile by tile (four tiles of 2048 positions), the products of the tiles
   contracted over the position, in an accumulator it clears at the batch's first tile, and after the fourth tile
   writes the accumulator times 2⁻¹³ to the batch's block of the result. The reference contracts the position axis in
   one batched product and divides by 8192.
   At the ideal values both are, at batch p, row i and column j, the sum over all positions s of
   a[p, s, i] * b[p, s, j], times 2⁻¹³: rounding the tiles to a narrower format is the identity, a product into a zero
   accumulator is a plain sum, four tile sums regroup into the whole sum by associativity and commutativity of the
   extended reals' addition, and dividing by the power of two 8192 is multiplying by its exact reciprocal 2⁻¹³ on
   every extended real, the infinities included. No finiteness of the inputs is used.
   The three programs' runs (termination, no fault, arguments unchanged) are the generated frames and the generated
   run of the reference; the kernel's idealization rewrote nothing. -/
import proofs.«101816_j30313879176037_1_alg».proof.Defs
import proofs.«101816_j30313879176037_1_alg».proof.Proof.Gen.Kernel
import proofs.«101816_j30313879176037_1_alg».proof.Proof.Gen.Kernel.Skeleton
import proofs.«101816_j30313879176037_1_alg».proof.Proof.Gen.Kernel.Launch
import proofs.«101816_j30313879176037_1_alg».proof.Proof.Gen.Kernel.Points
import proofs.«101816_j30313879176037_1_alg».proof.Proof.Gen.Kernel.Frame
import proofs.«101816_j30313879176037_1_alg».proof.Proof.Gen.KernelIdeal
import proofs.«101816_j30313879176037_1_alg».proof.Proof.Gen.KernelIdeal.Skeleton
import proofs.«101816_j30313879176037_1_alg».proof.Proof.Gen.KernelIdeal.Launch
import proofs.«101816_j30313879176037_1_alg».proof.Proof.Gen.KernelIdeal.Points
import proofs.«101816_j30313879176037_1_alg».proof.Proof.Gen.KernelIdeal.Frame
import proofs.«101816_j30313879176037_1_alg».proof.Proof.Gen.ReferenceIdeal
import proofs.«101816_j30313879176037_1_alg».proof.Proof.Gen.Pre_finite_inputs
import proofs.«101816_j30313879176037_1_alg».proof.Proof.Gen.KernelIdeal.Value
import proofs.«101816_j30313879176037_1_alg».proof.Proof.Gen.ReferenceIdeal.Run
import proofs.«101816_j30313879176037_1_alg».proof.Proof.Gen.ReferenceIdeal.Read
import proofs.«101816_j30313879176037_1_alg».proof.Proof.RefIsSpec
import proofs.«101816_j30313879176037_1_alg».proof.Proof.Whole
import Idealize.ShloMosaic.Adequacy
import Idealize.ShloMosaic.Init

noncomputable section

namespace Cert.Proof

open Idealize.ShloMosaic Idealize.SL.Sem Cert.MeanOuter

theorem frame_kernel : Cert.frame_Kernel := fun m ρ _ => Cert.Kernel.Gen.frame m ρ

theorem frame_kernel_ideal : Cert.frame_KernelIdeal := fun m ρ _ => Cert.KernelIdeal.Gen.frame m ρ

/-- The reference's run with its result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both runs end with the result at the mean outer product of arguments that agree. -/
theorem algebraic : Cert.algebraic_KernelIdeal_ReferenceIdeal := by
  intro m ρ m' ρ' _ hagree
  refine ⟨fun c => meanOuter
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
